-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x300x128 : Shape := ⟨4, ![32, 64, 300, 128]⟩
abbrev S_ : Shape := ⟨0, ![]⟩

class Facts : Prop where
  bcast_S_S32x64x300x128 : S_.BroadcastsInDim S32x64x300x128 (![] : Fin 0 → Fin S32x64x300x128.rank)
  reducesTo_S32x64x300x128_S_d0_1_2_3 : S32x64x300x128.ReducesTo [0, 1, 2, 3] S_
  h_S_ : 0 < S_.numel

variable [Facts]

def fn {F : FTy → Type} [FloatOps F] (main_arg0 : FVec F S32x64x300x128 .f32) (main_arg1 : FVec F S32x64x300x128 .f32) : IVec S_ 1 :=
  let main_v0 : FVec F S32x64x300x128 .f32 := Host.absf main_arg0
  let main_cst : FVec F S_ .f32 := constant S_ .f32 0x7F800000#32
  let main_v1 : FVec F S32x64x300x128 .f32 := broadcastInDim S32x64x300x128 ![] bcast_S_S32x64x300x128 main_cst
  let main_v2 : IVec S32x64x300x128 1 := cmpf .olt main_v0 main_v1
  let main_c : IVec S_ 1 := constantI S_ 1 1#1
  let main_v3 : IVec S_ 1 := (fun x v => Host.reduce IntOp.andi x v reducesTo_S32x64x300x128_S_d0_1_2_3 h_S_) main_v2 main_c
  let main_v4 : FVec F S32x64x300x128 .f32 := Host.absf main_arg1
  let main_cst_0 : FVec F S_ .f32 := constant S_ .f32 0x7F800000#32
  let main_v5 : FVec F S32x64x300x128 .f32 := broadcastInDim S32x64x300x128 ![] bcast_S_S32x64x300x128 main_cst_0
  let main_v6 : IVec S32x64x300x128 1 := cmpf .olt main_v4 main_v5
  let main_c_1 : IVec S_ 1 := constantI S_ 1 1#1
  let main_v7 : IVec S_ 1 := (fun x v => Host.reduce IntOp.andi x v reducesTo_S32x64x300x128_S_d0_1_2_3 h_S_) main_v6 main_c_1
  let main_v8 : IVec S_ 1 := andi main_v3 main_v7
  main_v8
-- ==== Kernel.lean ====
abbrev S32x64x300x128 : Shape := ⟨4, ![32, 64, 300, 128]⟩
abbrev S32x64x128x3 : Shape := ⟨4, ![32, 64, 128, 3]⟩
abbrev S1x32x300x128 : Shape := ⟨4, ![1, 32, 300, 128]⟩
abbrev S1x32x128x3 : Shape := ⟨4, ![1, 32, 128, 3]⟩
abbrev S32x300x128 : Shape := ⟨3, ![32, 300, 128]⟩
abbrev S32x128 : Shape := ⟨2, ![32, 128]⟩
abbrev S32x128x1 : Shape := ⟨3, ![32, 128, 1]⟩
abbrev S32x128x3 : Shape := ⟨3, ![32, 128, 3]⟩
abbrev S32x8192x3 : Shape := ⟨3, ![32, 8192, 3]⟩

abbrev nBuf : Space → Nat
  | .hbm => 4
  | .vmem => 6
  | .smem => 0
  | _ => 0

abbrev bufTy : (tb : Table) → Fin (tcTables nBuf tb) → BufTy
  | .hbm, ⟨0, _⟩ => ⟨S32x64x300x128, .f32⟩
  | .hbm, ⟨1, _⟩ => ⟨S32x64x300x128, .f32⟩
  | .hbm, ⟨2, _⟩ => ⟨S32x64x128x3, .f32⟩
  | .hbm, ⟨3, _⟩ => ⟨S32x8192x3, .f32⟩
  | .local _ .vmem, ⟨0, _⟩ => ⟨S1x32x300x128, .f32⟩
  | .local _ .vmem, ⟨1, _⟩ => ⟨S1x32x300x128, .f32⟩
  | .local _ .vmem, ⟨2, _⟩ => ⟨S1x32x300x128, .f32⟩
  | .local _ .vmem, ⟨3, _⟩ => ⟨S1x32x300x128, .f32⟩
  | .local _ .vmem, ⟨4, _⟩ => ⟨S1x32x128x3, .f32⟩
  | .local _ .vmem, ⟨5, _⟩ => ⟨S1x32x128x3, .f32⟩
  | _, _ => ⟨S32x64x300x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x300x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x300x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x128x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x32x300x128_S1x32x300x128_0_0_0_0 : ∀ a, (![0, 0, 0, 0] : Fin 4 → Nat) a + S1x32x300x128.size a ≤ S1x32x300x128.size a
  h_S1x32x300x128 : 0 < S1x32x300x128.numel
  shapeCasts_S1x32x300x128_S32x300x128 : S1x32x300x128.ShapeCasts S32x300x128
  reduces_S32x300x128_S32x128 : S32x300x128.Reduces [1] S32x128
  natLt_1_32 : 1 < 32
  shapeCasts_S32x128_S32x128x1 : S32x128.ShapeCasts S32x128x1
  concatenates_S32x128x1_S32x128x1_S32x128x1_S32x128x3_d2 : Shape.Concatenates [S32x128x1, S32x128x1, S32x128x1] S32x128x3 2
  inb_S1x32x128x3_S1x32x128x3_0_0_0_0 : ∀ a, (![0, 0, 0, 0] : Fin 4 → Nat) a + S1x32x128x3.size a ≤ S1x32x128x3.size a
  h_S1x32x128x3 : 0 < S1x32x128x3.numel
  shapeCasts_S1x32x128x3_S32x128x3 : S1x32x128x3.ShapeCasts S32x128x3
  shapeCasts_S32x128x3_S1x32x128x3 : S32x128x3.ShapeCasts S1x32x128x3
  shapeCasts_S32x64x128x3_S32x8192x3 : S32x64x128x3.ShapeCasts S32x8192x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x300x128.size a ≤ S32x64x300x128.size a
  hwx0_0 : ∀ i : grid0.Coords, EltTy.bits .f32 = 32 ∨ (Rect.block (s := S32x64x300x128) S1x32x300x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x300x128.size a ≤ S32x64x300x128.size a
  hwx0_1 : ∀ i : grid0.Coords, EltTy.bits .f32 = 32 ∨ (Rect.block (s := S32x64x300x128) S1x32x300x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x128x3.size a ≤ S32x64x128x3.size a
  hwx0_2 : ∀ i : grid0.Coords, EltTy.bits .f32 = 32 ∨ (Rect.block (s := S32x64x128x3) S1x32x128x3.size (cc0_transform_2 i) (hinb0_2 i)).WholeWords (EltTy.packing .f32)

variable [Facts₀]

abbrev win0_0 : Pipeline.Window sig grid0 :=
  Pipeline.Window.ofSpec (Memref.whole main_arg0) S1x32x300x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x300x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32x128x3.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x64x300x128 : Shape := ⟨4, ![32, 64, 300, 128]⟩
abbrev S32x64x128x300 : Shape := ⟨4, ![32, 64, 128, 300]⟩
abbrev S32x8192x300 : Shape := ⟨3, ![32, 8192, 300]⟩
abbrev S_ : Shape := ⟨0, ![]⟩
abbrev S32x8192 : Shape := ⟨2, ![32, 8192]⟩
abbrev S32x8192x1 : Shape := ⟨3, ![32, 8192, 1]⟩
abbrev S32x8192x3 : Shape := ⟨3, ![32, 8192, 3]⟩

abbrev nBuf : Space → Nat
  | .hbm => 45
  | .vmem => 0
  | .smem => 0
  | _ => 0

abbrev bufTy : (tb : Table) → Fin (tcTables nBuf tb) → BufTy
  | .hbm, ⟨0, _⟩ => ⟨S32x64x300x128, .f32⟩
  | .hbm, ⟨1, _⟩ => ⟨S32x64x300x128, .f32⟩
  | .hbm, ⟨2, _⟩ => ⟨S32x64x128x300, .f32⟩
  | .hbm, ⟨3, _⟩ => ⟨S32x8192x300, .f32⟩
  | .hbm, ⟨4, _⟩ => ⟨S32x64x128x300, .f32⟩
  | .hbm, ⟨5, _⟩ => ⟨S32x8192x300, .f32⟩
  | .hbm, ⟨6, _⟩ => ⟨S32x8192x300, .f32⟩
  | .hbm, ⟨7, _⟩ => ⟨S_, .f32⟩
  | .hbm, ⟨8, _⟩ => ⟨S32x8192, .f32⟩
  | .hbm, ⟨9, _⟩ => ⟨S32x8192, .f32⟩
  | .hbm, ⟨10, _⟩ => ⟨S_, .f32⟩
  | .hbm, ⟨11, _⟩ => ⟨S32x8192, .f32⟩
  | .hbm, ⟨12, _⟩ => ⟨S32x8192, .f32⟩
  | .hbm, ⟨13, _⟩ => ⟨S32x8192x300, .f32⟩
  | .hbm, ⟨14, _⟩ => ⟨S_, .f32⟩
  | .hbm, ⟨15, _⟩ => ⟨S32x8192, .f32⟩
  | .hbm, ⟨16, _⟩ => ⟨S32x8192, .f32⟩
  | .hbm, ⟨17, _⟩ => ⟨S_, .f32⟩
  | .hbm, ⟨18, _⟩ => ⟨S32x8192, .f32⟩
  | .hbm, ⟨19, _⟩ => ⟨S32x8192, .f32⟩
  | .hbm, ⟨20, _⟩ => ⟨S32x8192x300, .f32⟩
  | .hbm, ⟨21, _⟩ => ⟨S_, .f32⟩
  | .hbm, ⟨22, _⟩ => ⟨S32x8192, .f32⟩
  | .hbm, ⟨23, _⟩ => ⟨S32x8192, .f32⟩
  | .hbm, ⟨24, _⟩ => ⟨S32x8192, .f32⟩
  | .hbm, ⟨25, _⟩ => ⟨S32x8192x300, .f32⟩
  | .hbm, ⟨26, _⟩ => ⟨S32x8192x300, .f32⟩
  | .hbm, ⟨27, _⟩ => ⟨S_, .f32⟩
  | .hbm, ⟨28, _⟩ => ⟨S32x8192, .f32⟩
  | .hbm, ⟨29, _⟩ => ⟨S_, .f32⟩
  | .hbm, ⟨30, _⟩ => ⟨S32x8192, .f32⟩
  | .hbm, ⟨31, _⟩ => ⟨S32x8192, .i1⟩
  | .hbm, ⟨32, _⟩ => ⟨S32x8192, .f32⟩
  | .hbm, ⟨33, _⟩ => ⟨S_, .f32⟩
  | .hbm, ⟨34, _⟩ => ⟨S32x8192, .f32⟩
  | .hbm, ⟨35, _⟩ => ⟨S32x8192, .f32⟩
  | .hbm, ⟨36, _⟩ => ⟨S32x8192, .f32⟩
  | .hbm, ⟨37, _⟩ => ⟨S32x8192, .f32⟩
  | .hbm, ⟨38, _⟩ => ⟨S32x8192x300, .f32⟩
  | .hbm, ⟨39, _⟩ => ⟨S_, .f32⟩
  | .hbm, ⟨40, _⟩ => ⟨S32x8192, .f32⟩
  | .hbm, ⟨41, _⟩ => ⟨S32x8192x1, .f32⟩
  | .hbm, ⟨42, _⟩ => ⟨S32x8192x1, .f32⟩
  | .hbm, ⟨43, _⟩ => ⟨S32x8192x1, .f32⟩
  | .hbm, ⟨44, _⟩ => ⟨S32x8192x3, .f32⟩
  | _, _ => ⟨S32x64x300x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_4 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩

abbrev nD : Nat := 1
abbrev τ : Topo := Topo.v7x

variable {F : FTy → Type} [FloatOps F]

class Facts₀ : Prop where
  transposes_S32x64x300x128_S32x64x128x300_0_1_3_2 : S32x64x300x128.Transposes [0, 1, 3, 2] S32x64x128x300
  shapeCasts_S32x64x128x300_S32x8192x300 : S32x64x128x300.ShapeCasts S32x8192x300
  reducesTo_S32x8192x300_S32x8192_d2 : S32x8192x300.ReducesTo [2] S32x8192
  h_S_ : 0 < S_.numel
  bcast_S_S32x8192 : S_.BroadcastsInDim S32x8192 (![] : Fin 0 → Fin S32x8192.rank)
  bcast_S32x8192_S32x8192x1_0_1 : S32x8192.BroadcastsInDim S32x8192x1 (![0, 1] : Fin 2 → Fin S32x8192x1.rank)
  concatenates_S32x8192x1_S32x8192x1_S32x8192x1_S32x8192x3_d2 : Shape.Concatenates [S32x8192x1, S32x8192x1, S32x8192x1] S32x8192x3 2

variable [Facts₀]

class Facts : Prop extends Facts₀ where

variable [Facts]
-- ==== Proof.RowStats.lean ====
/-
  The three statistics of a pair of rows, on the extended reals.

  For two rows u, v of 300 extended reals:
    * cosine:    (Σ u·v) / (max (√Σ u²) ε · max (√Σ v²) ε), with ε the f32 word of 1e-12;
    * euclid:    √(s + [s < β]·β) with s = Σ (u − v)² and β the f32 word of 1e-8, the bracket 1 when the
                 comparison holds and 0 when it does not;
    * manhattan: Σ |u − v|, the absolute value written max w (−w).
  Both programs compute exactly these three numbers for every pair of rows; they differ only in how a row is cut out
  of the input arrays and in how the 0/1 bracket is produced from the comparison's bit.
-/
import Idealize.ShloMosaic.PureOps.Ideal
import Idealize.ShloMosaic.PureOps.Ideal.Laws

noncomputable section

open scoped BigOperators

namespace Cert.RowStats

open Idealize.ShloMosaic

/-- The floor under a norm: what the f32 word 0x2B8CBCCC denotes. -/
def normFloor : EReal := Ideal.ofBits .f32 0x2B8CBCCC#32
/-- The threshold and bump of the squared distance: what the f32 word 0x322BCC77 denotes. -/
def sqBump : EReal := Ideal.ofBits .f32 0x322BCC77#32

/-- Σ u·v over the 300 positions of a row. -/
def dot (u v : Fin 300 → EReal) : EReal := ∑ d : Fin 300, u d * v d
/-- Σ (u − v)². -/
def sqDist (u v : Fin 300 → EReal) : EReal := ∑ d : Fin 300, (u d - v d) * (u d - v d)
/-- The 0/1 value of a comparison bit. -/
def bracket (b : BitVec 1) : EReal := ((b.toNat : ℝ) : EReal)

def cosine (u v : Fin 300 → EReal) : EReal :=
  Ideal.div (dot u v) (max (Ideal.sqrt (dot u u)) normFloor * max (Ideal.sqrt (dot v v)) normFloor)
def euclid (u v : Fin 300 → EReal) : EReal :=
  Ideal.sqrt (sqDist u v + bracket (Ideal.cmp .olt (sqDist u v) sqBump) * sqBump)
def manhattan (u v : Fin 300 → EReal) : EReal := ∑ d : Fin 300, max (u d - v d) (-(u d - v d))

/-- The three statistics in the order both programs stack them. -/
def stat (u v : Fin 300 → EReal) : Fin 3 → EReal
  | ⟨0, _⟩ => cosine u v
  | ⟨1, _⟩ => euclid u v
  | ⟨2, _⟩ => manhattan u v

/-- A comparison bit widened to 32 bits and read as a SIGNED integer is the bit read as a natural number:
    the widened word is 0 or 1, below the sign bit. -/
theorem toInt_setWidth_bit (b : BitVec 1) : (((b.setWidth 32).toInt : ℝ) : EReal) = bracket b := by
  have h : (b.setWidth 32).toInt = (b.toNat : ℤ) := by revert b; decide
  unfold bracket
  rw [h]
  norm_cast

end Cert.RowStats

end
-- ==== Proof.LibStackLast.lean ====
/-
  Three arrays of one shape [a, b] stacked along a NEW LAST axis, read at an index.

  A stack along a new trailing axis is written, in both programs, as three arrays of shape [a, b, 1]
  concatenated along axis 2 into [a, b, 3]. Entry (i, j, k) of the result is entry (i, j, 0) of the k-th
  piece: the pieces before the k-th occupy k positions of the joined axis, each piece one position.
  A cast of [a, b] to [a, b, 1] keeps the row-major position, so its entry (i, j, 0) is entry (i, j).
-/
import Idealize.ShloMosaic.Lib.Pipeline.Value
import Idealize.ShloMosaic.Lib.ValueIdx

namespace Idealize.ShloMosaic.StackLast

open Idealize.ShloMosaic Idealize.ShloMosaic.ValueIdx

variable {α : Type}

/-- An [a, b] array cast to [a, b, 1] reads, at (i, j, u), the operand at (i, j): the unit coordinate is 0 and
    both indices have row-major position i * b + j. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- The k-th of three pieces. -/
def pick3 {β : Type} (x y z : β) : Fin 3 → β
  | ⟨0, _⟩ => x
  | ⟨1, _⟩ => y
  | ⟨2, _⟩ => z

/-- Three [a, b, 1] arrays joined along the last axis read, at (i, j, k), the k-th piece at (i, j, 0). -/
theorem concat3_last_apply {a b : ℕ} (x y z : (⟨3, ![a, b, 1]⟩ : Shape).Idx → α)
    (h : Shape.Concatenates [(⟨3, ![a, b, 1]⟩ : Shape), ⟨3, ![a, b, 1]⟩, ⟨3, ![a, b, 1]⟩] ⟨3, ![a, b, 3]⟩ 2)
    (i : Fin a) (j : Fin b) (k : Fin 3) :
    concatenate ⟨3, ![a, b, 3]⟩ 2 [⟨⟨3, ![a, b, 1]⟩, x⟩, ⟨⟨3, ![a, b, 1]⟩, y⟩, ⟨⟨3, ![a, b, 1]⟩, z⟩] h (ix3 i j k)
      = pick3 x y z k (ix3 i j (0 : Fin 1)) := by
  have hoff : ∀ bb : Fin 3, bb.cast (rfl : (3 : ℕ) = 3) ≠ (2 : Fin 3) →
      ((ix3 i j (0 : Fin 1) : (⟨3, ![a, b, 1]⟩ : Shape).Idx) bb).val
        = ((ix3 i j k : (⟨3, ![a, b, 3]⟩ : Shape).Idx) (bb.cast rfl)).val := fun bb =>
    match bb with
    | ⟨0, _⟩ => fun _ => rfl
    | ⟨1, _⟩ => fun _ => rfl
    | ⟨2, _⟩ => fun hb => absurd rfl hb
  match k with
  | ⟨0, _⟩ =>
    exact concatenate_apply_piece (t := ⟨3, ![a, b, 3]⟩) (2 : Fin 3)
      [⟨⟨3, ![a, b, 1]⟩, x⟩, ⟨⟨3, ![a, b, 1]⟩, y⟩, ⟨⟨3, ![a, b, 1]⟩, z⟩] h _ 0 (by simp) ⟨3, ![a, b, 1]⟩ x rfl rfl 0 rfl
      (ix3 i j (0 : Fin 1)) hoff rfl
  | ⟨1, _⟩ =>
    exact concatenate_apply_piece (t := ⟨3, ![a, b, 3]⟩) (2 : Fin 3)
      [⟨⟨3, ![a, b, 1]⟩, x⟩, ⟨⟨3, ![a, b, 1]⟩, y⟩, ⟨⟨3, ![a, b, 1]⟩, z⟩] h _ 1 (by simp) ⟨3, ![a, b, 1]⟩ y rfl rfl 1 rfl
      (ix3 i j (0 : Fin 1)) hoff rfl
  | ⟨2, _⟩ =>
    exact concatenate_apply_piece (t := ⟨3, ![a, b, 3]⟩) (2 : Fin 3)
      [⟨⟨3, ![a, b, 1]⟩, x⟩, ⟨⟨3, ![a, b, 1]⟩, y⟩, ⟨⟨3, ![a, b, 1]⟩, z⟩] h _ 2 (by simp) ⟨3, ![a, b, 1]⟩ z rfl rfl 2 rfl
      (ix3 i j (0 : Fin 1)) hoff rfl

end Idealize.ShloMosaic.StackLast
-- ==== Proof.KernelBlock.lean ====
/-
  The kernel's block at an index.

  The body loads one [1, 32, 300, 128] block of each input, reads both as [32, 300, 128], and for every pair
  (c, l) reduces over the middle axis: the row of the pair is d ↦ block (0, c, d, l). The five lane sums over that
  axis are the dot products Σ x², Σ y², Σ xy and the sums Σ (x−y)², Σ |x−y| of the two rows; the pointwise
  arithmetic after them is the three row statistics, stacked along a new last axis and stored as a
  [1, 32, 128, 3] block. So entry (0, c, l, k) of the stored block is statistic k of the rows at (c, l).
-/
import proofs.«180322_j84593675862345_1_alg».proof.Proof.Gen.KernelIdeal.Skeleton
import proofs.«180322_j84593675862345_1_alg».proof.Proof.RowStats
import proofs.«180322_j84593675862345_1_alg».proof.Proof.LibStackLast
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx
open Idealize.ShloMosaic.StackLast Cert.RowStats

/-- The row of a [1, 32, 300, 128] block at the pair (c, l): its 300 entries along the reduced axis. -/
def rowOf (x : FVec Ideal S1x32x300x128 .f32) (c : Fin 32) (l : Fin 128) : Fin 300 → EReal :=
  fun d => x (ix4 (0 : Fin 1) c d l)

/-- A lane sum over the middle axis of a [32, 300, 128] vector, at (c, l), is the sum of its entries (c, d, l). -/
theorem laneSum_apply (v : FVec Ideal S32x300x128 .f32) (h : S32x300x128.Reduces [1] S32x128) (hφ : FKind.Formats .f32)
    (hacc : (0x00000000#32 : BitVec 32) = 0x00000000#32) (c : Fin 32) (l : Fin 128) :
    multiReduction .add [1] S32x128 v 0x00000000#32 h hφ hacc (ix2 c l) = ∑ d : Fin 300, v (ix3 c d l) := by
  refine (Ideal.multiReduction_add_single v 0x00000000#32 h hφ hacc (ix2 c l)).trans ?_
  refine Finset.sum_congr rfl fun d _ => congrArg v ?_
  funext a
  apply Fin.ext
  match a with
  | ⟨0, _⟩ => rfl
  | ⟨1, _⟩ => rfl
  | ⟨2, _⟩ => rfl

/-- The block read as [32, 300, 128]: entry (c, d, l) is entry (0, c, d, l). -/
theorem dropLead_apply (x : FVec Ideal S1x32x300x128 .f32) (c : Fin 32) (d : Fin 300) (l : Fin 128) :
    shapeCast S32x300x128 x shapeCasts_S1x32x300x128_S32x300x128 (ix3 c d l) = x (ix4 (0 : Fin 1) c d l) :=
  shapeCast_1abc_abc_apply x _ c d l

theorem sqrt_apply {s : Shape} {φ : FTy} (a : FVec Ideal s φ) (i : s.Idx) : sqrt a i = Ideal.sqrt (a i) := rfl
theorem absf_apply {s : Shape} {φ : FTy} (a : FVec Ideal s φ) (i : s.Idx) : absf a i = max (a i) (-(a i)) := rfl

/-- The lane sum of the product of two blocks, at (c, l), is the dot product of their rows there. -/
theorem dotLane (x0 x1 : Vec Ideal S1x32x300x128 .f32) (h : S32x300x128.Reduces [1] S32x128) (hφ : FKind.Formats .f32)
    (hacc : (0x00000000#32 : BitVec 32) = 0x00000000#32) (c : Fin 32) (l : Fin 128) :
    multiReduction (F := Ideal) .add [1] S32x128
        (mulf (F := Ideal) (shapeCast S32x300x128 x0 shapeCasts_S1x32x300x128_S32x300x128)
          (shapeCast S32x300x128 x1 shapeCasts_S1x32x300x128_S32x300x128)) 0x00000000#32 h hφ hacc (ix2 c l)
      = dot (rowOf x0 c l) (rowOf x1 c l) :=
  (laneSum_apply _ h hφ hacc c l).trans (Finset.sum_congr rfl fun d _ =>
    congrArg₂ (· * ·) (dropLead_apply x0 c d l) (dropLead_apply x1 c d l))

/-- The lane sum of the squared difference of two blocks, at (c, l), is the squared distance of their rows there. -/
theorem sqLane (x0 x1 : Vec Ideal S1x32x300x128 .f32) (h : S32x300x128.Reduces [1] S32x128) (hφ : FKind.Formats .f32)
    (hacc : (0x00000000#32 : BitVec 32) = 0x00000000#32) (c : Fin 32) (l : Fin 128) :
    multiReduction (F := Ideal) .add [1] S32x128
        (mulf (F := Ideal)
          (subf (F := Ideal) (shapeCast S32x300x128 x0 shapeCasts_S1x32x300x128_S32x300x128)
            (shapeCast S32x300x128 x1 shapeCasts_S1x32x300x128_S32x300x128))
          (subf (F := Ideal) (shapeCast S32x300x128 x0 shapeCasts_S1x32x300x128_S32x300x128)
            (shapeCast S32x300x128 x1 shapeCasts_S1x32x300x128_S32x300x128))) 0x00000000#32 h hφ hacc (ix2 c l)
      = sqDist (rowOf x0 c l) (rowOf x1 c l) :=
  (laneSum_apply _ h hφ hacc c l).trans (Finset.sum_congr rfl fun d _ =>
    congrArg₂ (fun a b : EReal => (a - b) * (a - b)) (dropLead_apply x0 c d l) (dropLead_apply x1 c d l))

/-- The lane sum of the absolute difference of two blocks, at (c, l), is the sum of |u − v| over their rows there. -/
theorem absLane (x0 x1 : Vec Ideal S1x32x300x128 .f32) (h : S32x300x128.Reduces [1] S32x128) (hφ : FKind.Formats .f32)
    (hacc : (0x00000000#32 : BitVec 32) = 0x00000000#32) (c : Fin 32) (l : Fin 128) :
    multiReduction (F := Ideal) .add [1] S32x128
        (absf (F := Ideal)
          (subf (F := Ideal) (shapeCast S32x300x128 x0 shapeCasts_S1x32x300x128_S32x300x128)
            (shapeCast S32x300x128 x1 shapeCasts_S1x32x300x128_S32x300x128))) 0x00000000#32 h hφ hacc (ix2 c l)
      = manhattan (rowOf x0 c l) (rowOf x1 c l) :=
  (laneSum_apply _ h hφ hacc c l).trans (Finset.sum_congr rfl fun d _ =>
    congrArg₂ (fun a b : EReal => max (a - b) (-(a - b))) (dropLead_apply x0 c d l) (dropLead_apply x1 c d l))

/-- ENTRY (0, c, l, k) OF THE STORED BLOCK is statistic k of the two rows at (c, l). -/
theorem stored_apply (x0 x1 : Vec Ideal S1x32x300x128 .f32) (c : Fin 32) (l : Fin 128) (k : Fin 3) :
    k0_pay1 (F := Ideal) (k0_pay2 (F := Ideal) x0 x1) (ix4 (0 : Fin 1) c l k) = stat (rowOf x0 c l) (rowOf x1 c l) k := by
  unfold k0_pay1 k0_pay2
  refine (shapeCast_abc_1abc_apply _ _ (0 : Fin 1) c l k).trans ?_
  refine (concat3_last_apply _ _ _ _ c l k).trans ?_
  match k with
  | ⟨0, _⟩ =>
    dsimp only [pick3, stat]
    refine (shapeCast_ab_ab1_apply _ _ c l (0 : Fin 1)).trans ?_
    exact congrArg₂ (fun s n : EReal => Ideal.div s n) (dotLane x0 x1 _ _ _ c l)
      (congrArg₂ (fun a b : EReal => max (Ideal.sqrt a) normFloor * max (Ideal.sqrt b) normFloor)
        (dotLane x0 x0 _ _ _ c l) (dotLane x1 x1 _ _ _ c l))
  | ⟨1, _⟩ =>
    dsimp only [pick3, stat]
    refine (shapeCast_ab_ab1_apply _ _ c l (0 : Fin 1)).trans ?_
    unfold euclid
    rw [← toInt_setWidth_bit]
    exact congrArg
      (fun s : EReal => Ideal.sqrt (s + (((BitVec.setWidth 32 (Ideal.cmp .olt s sqBump)).toInt : ℝ) : EReal) * sqBump))
      (sqLane x0 x1 _ _ _ c l)
  | ⟨2, _⟩ =>
    dsimp only [pick3, stat]
    refine (shapeCast_ab_ab1_apply _ _ c l (0 : Fin 1)).trans ?_
    exact absLane x0 x1 _ _ _ c l

end Cert.KernelIdeal.Block

end
-- ==== Proof.Result.lean ====
/-
  The result both programs compute, as one function of the two input arrays.

  The inputs are [32, 64, 300, 128] arrays (batch, channel, position, lane); the result is [32, 8192, 3]. Row r of batch b
  of the result belongs to channel r / 128 and lane r % 128 — the channel and lane axes merged in row-major order —
  and its three entries are the three statistics of the two rows d ↦ x (b, r / 128, d, r % 128), d ↦ y (b, r / 128, d, r % 128).
-/
import proofs.«180322_j84593675862345_1_alg».proof.Proof.RowStats

noncomputable section

namespace Cert.Result

open Idealize.ShloMosaic Cert.RowStats

/-- The inputs' shape and the result's. -/
abbrev InArr : Shape := ⟨4, ![32, 64, 300, 128]⟩
abbrev OutArr : Shape := ⟨3, ![32, 8192, 3]⟩

/-- The input index that position d of the row behind result entry i = (b, r, k) reads: (b, r / 128, d, r % 128). -/
abbrev rowOfOut (i : OutArr.Idx) (d : Fin 300) : InArr.Idx := fun a => match a with
  | ⟨0, _⟩ => ⟨(i 0).val, (i 0).isLt⟩
  | ⟨1, _⟩ => ⟨(i 1).val / 128, by have h : (i 1).val < 8192 := (i 1).isLt; show (i 1).val / 128 < 64; omega⟩
  | ⟨2, _⟩ => ⟨d.val, d.isLt⟩
  | ⟨3, _⟩ => ⟨(i 1).val % 128, by show (i 1).val % 128 < 128; omega⟩

/-- Entry (b, r, k) of the result: statistic k of the two rows behind (b, r). -/
def result (x y : InArr.Idx → EReal) : OutArr.Idx → EReal :=
  fun i => stat (fun d => x (rowOfOut i d)) (fun d => y (rowOfOut i d)) ⟨(i 2).val, (i 2).isLt⟩

/-- The statistics of equal rows at equal positions are equal. -/
theorem stat_congr {u u' v v' : Fin 300 → EReal} {k k' : Fin 3} (hu : u = u') (hv : v = v') (hk : k = k') :
    stat u v k = stat u' v' k' := by subst hu hv hk; rfl

end Cert.Result

end
-- ==== Proof.KernelArray.lean ====
/-
  From blocks to the array, and the reshape after the region.

  The grid has 32 × 2 points. At point t = (b, h) both input windows stage block (b, h, 0, 0) of their arrays — channels
  32h … 32h + 31 of batch b, all 300 positions, all 128 lanes — and the output window writes back block (b, h, 0, 0) of the
  [32, 64, 128, 3] result — the same channels, all lanes, the three statistics. Entry (b, ch, l, k) of the result depends on
  the rows d ↦ input (b, ch, d, l) only, so every point writes back its block of ONE function of the two input arrays; the 64
  blocks tile the result. The host's reshape after the region merges the channel and lane axes in row-major order.
-/
import proofs.«180322_j84593675862345_1_alg».proof.Proof.Gen.KernelIdeal.Frame
import proofs.«180322_j84593675862345_1_alg».proof.Proof.KernelBlock
import proofs.«180322_j84593675862345_1_alg».proof.Proof.Result
import Idealize.ShloMosaic.Lib.Pipeline.Value
import Idealize.ShloMosaic.Lib.StableHlo.Run

set_option maxRecDepth 16384

noncomputable section

namespace Cert.KernelIdeal.Arr

open Cert.KernelIdeal Cert.KernelIdeal.Gen Idealize.ShloMosaic Idealize.ShloMosaic.TcCoe Idealize.SL.Sem
open Idealize.ShloMosaic.Pipeline (Dat)
open Idealize.ShloMosaic.ValueIdx Cert.RowStats Cert.KernelIdeal.Block Cert.Result

variable (m : (ℓ : Loc nD τ sig) → Buf (Elt Ideal) ℓ) (ρ : Dev nD → PrngReg)

theorem zeros4 : (![0, 0, 0, 0] : Fin 4 → Nat) = fun _ => 0 := funext fun a => by fin_cases a <;> rfl

/-- The input index (b, ch, d, l) that position d of the row behind result entry i = (b, ch, l, k) reads. -/
abbrev rowIdx (i : S32x64x128x3.Idx) (d : Fin 300) : S32x64x300x128.Idx := fun a => match a with
  | ⟨0, _⟩ => ⟨(i 0).val, (i 0).isLt⟩
  | ⟨1, _⟩ => ⟨(i 1).val, (i 1).isLt⟩
  | ⟨2, _⟩ => ⟨d.val, d.isLt⟩
  | ⟨3, _⟩ => ⟨(i 2).val, (i 2).isLt⟩

/-- The region's result as one function of the two input arrays: entry (b, ch, l, k) is statistic k of the two rows
    d ↦ x (b, ch, d, l) and d ↦ y (b, ch, d, l). -/
def regionOut (x y : S32x64x300x128.Idx → EReal) : S32x64x128x3.Idx → EReal :=
  fun i => stat (fun d => x (rowIdx i d)) (fun d => y (rowIdx i d)) ⟨(i 3).val, (i 3).isLt⟩

/-- The printed index maps, decided over the 64 grid points: the input windows move with the output window on the batch
    and channel-block axes and sit at block 0 on the other two; the output's batch index is below 32 and its channel-block
    index below 2. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) ≤ 31 ∧ win0_2.index t (1 : Fin 4) ≤ 1 :=
  (by decide +kernel : ∀ t : Fin grid0.N, _)

/-- Every (batch, channel-block) pair is some point's. -/
theorem idx_onto : ∀ (q0 : Fin 32) (q1 : Fin 2), ∃ t : Fin cfg0.N, win0_2.index t = ![q0.val, q1.val, 0, 0] :=
  (by decide +kernel : ∀ (q0 : Fin 32) (q1 : Fin 2), ∃ t : Fin grid0.N, win0_2.index t = ![q0.val, q1.val, 0, 0])

/-- Entry (0, c', d, l) of the first input's block at point t is the array at the row index of any result entry i in
    point t's output block with channel offset c' and lane l. -/
theorem iblk0_apply (c : Dev nD) (t : Fin cfg0.N) (c' : Fin 32) (d : Fin 300) (l : Fin 128) (i : S32x64x128x3.Idx)
    (h0 : (i 0).val = win0_2.index t (0 : Fin 4)) (h1 : (i 1).val = win0_2.index t (1 : Fin 4) * 32 + c'.val)
    (h2 : (i 2).val = l.val) :
    (iblk m c 0 t : Vec Ideal S1x32x300x128 .f32) (ix4 (0 : Fin 1) c' d l)
      = (V m c main_arg0 : S32x64x300x128.Idx → EReal) (rowIdx i d) := by
  obtain ⟨e0, e1, e2, e3, -⟩ := idx_facts t
  unfold iblk
  rw [View.read_apply]
  show V m c main_arg0 _ = V m c main_arg0 _
  congr 1
  funext a
  apply Fin.ext
  match a with
  | ⟨0, _⟩ => show win0_0.index t (0 : Fin 4) * 1 + 1 * 0 = (i 0).val; omega
  | ⟨1, _⟩ => show win0_0.index t (1 : Fin 4) * 32 + 1 * c'.val = (i 1).val; omega
  | ⟨2, _⟩ => show win0_0.index t (2 : Fin 4) * 300 + 1 * d.val = d.val; omega
  | ⟨3, _⟩ => show win0_0.index t (3 : Fin 4) * 128 + 1 * l.val = (i 2).val; omega

/-- The same for the second input. -/
theorem iblk1_apply (c : Dev nD) (t : Fin cfg0.N) (c' : Fin 32) (d : Fin 300) (l : Fin 128) (i : S32x64x128x3.Idx)
    (h0 : (i 0).val = win0_2.index t (0 : Fin 4)) (h1 : (i 1).val = win0_2.index t (1 : Fin 4) * 32 + c'.val)
    (h2 : (i 2).val = l.val) :
    (iblk m c 1 t : Vec Ideal S1x32x300x128 .f32) (ix4 (0 : Fin 1) c' d l)
      = (V m c main_arg1 : S32x64x300x128.Idx → EReal) (rowIdx i d) := by
  obtain ⟨-, -, -, -, e0, e1, e2, e3, -⟩ := idx_facts t
  unfold iblk
  rw [View.read_apply]
  show V m c main_arg1 _ = V m c main_arg1 _
  congr 1
  funext a
  apply Fin.ext
  match a with
  | ⟨0, _⟩ => show win0_1.index t (0 : Fin 4) * 1 + 1 * 0 = (i 0).val; omega
  | ⟨1, _⟩ => show win0_1.index t (1 : Fin 4) * 32 + 1 * c'.val = (i 1).val; omega
  | ⟨2, _⟩ => show win0_1.index t (2 : Fin 4) * 300 + 1 * d.val = d.val; omega
  | ⟨3, _⟩ => show win0_1.index t (3 : Fin 4) * 128 + 1 * l.val = (i 2).val; omega

/-- At point t the stored block, entry by entry, is the result function at the entry's place in the array. -/
theorem point_eq (c : Dev nD) (t : Fin cfg0.N) (y : S1x32x128x3.Idx) :
    k0_pay1 (F := Ideal) (k0_pay2 (F := Ideal) (iblk m c 0 t) (iblk m c 1 t)) y
      = regionOut (V m c main_arg0) (V m c main_arg1) (((cfg0.win 2).blk t).view.emb y) := by
  obtain ⟨u, c', l, k, rfl⟩ : ∃ (u : Fin 1) (c' : Fin 32) (l : Fin 128) (k : Fin 3), y = ix4 u c' l k :=
    ⟨y 0, y 1, y 2, y 3, eq_ix4 y⟩
  obtain rfl : u = 0 := Subsingleton.elim _ _
  obtain ⟨-, -, -, -, -, -, -, -, e2, e3, -⟩ := idx_facts t
  refine (stored_apply (iblk m c 0 t) (iblk m c 1 t) c' l k).trans ?_
  unfold regionOut
  refine stat_congr (funext fun d => iblk0_apply m c t c' d l _ ?_ ?_ ?_)
    (funext fun d => iblk1_apply m c t c' d l _ ?_ ?_ ?_) (Fin.ext ?_)
  · show win0_2.index t (0 : Fin 4) * 1 + 1 * 0 = win0_2.index t (0 : Fin 4); omega
  · show win0_2.index t (1 : Fin 4) * 32 + 1 * c'.val = win0_2.index t (1 : Fin 4) * 32 + c'.val; omega
  · show win0_2.index t (2 : Fin 4) * 128 + 1 * l.val = l.val; omega
  · show win0_2.index t (0 : Fin 4) * 1 + 1 * 0 = win0_2.index t (0 : Fin 4); omega
  · show win0_2.index t (1 : Fin 4) * 32 + 1 * c'.val = win0_2.index t (1 : Fin 4) * 32 + c'.val; omega
  · show win0_2.index t (2 : Fin 4) * 128 + 1 * l.val = l.val; omega
  · show k.val = win0_2.index t (3 : Fin 4) * 3 + 1 * k.val; omega

/-- WHAT POINT t WRITES BACK is block t of the result function of the input arrays as the region finds them. -/
theorem flushed_eq (c : Dev nD) (t : Fin cfg0.N) :
    (dats m 0 c).flushed 2 t
      = ((cfg0.win 2).blk t).view.read (Elt Ideal) (regionOut (V m c main_arg0) (V m c main_arg1)) := by
  show (cfg0.win 2).cut (grid0.coords t) ((dats m 0 c).after 2 t) = _
  rw [after0_2]
  unfold out0_2
  rw [View.canon_unit_zero zeros4]
  simp only [View.ld_unit_zero (S := S1x32x300x128) zeros4]
  funext j
  exact point_eq m c t j

/-- An index of the result is in point t's block iff each coordinate is in the block's range on its axis. -/
theorem mem_blk (t : Fin cfg0.N) (i : S32x64x128x3.Idx) :
    i ∈ ((cfg0.win 2).blk t).view.set
      ↔ ∀ a : Fin 4, win0_2.index t a * S1x32x128x3.size a ≤ (i a).val
          ∧ (i a).val < win0_2.index t a * S1x32x128x3.size a + S1x32x128x3.size a := by
  show i ∈ ((View.whole main_v0).slice (win0_2.rect t)).set ↔ _
  rw [View.set_slice_whole, Rect.mem_set_unit]
  exact Iff.rfl

/-- Every entry (b, ch, l, k) of the result is in the block of the point with batch index b and channel block ch / 32. -/
theorem covered (i : S32x64x128x3.Idx) :
    ∃ t : Fin cfg0.N, (cfg0.win 2).flush t = true ∧ i ∈ ((cfg0.win 2).blk t).view.set := by
  have hi0 : (i 0).val < 32 := (i 0).isLt
  have hi1 : (i 1).val < 64 := (i 1).isLt
  have hi2 : (i 2).val < 128 := (i 2).isLt
  have hi3 : (i 3).val < 3 := (i 3).isLt
  obtain ⟨t, ht⟩ := idx_onto ⟨(i 0).val, hi0⟩ ⟨(i 1).val / 32, by omega⟩
  have q0 : win0_2.index t (0 : Fin 4) = (i 0).val := congrFun ht 0
  have q1 : win0_2.index t (1 : Fin 4) = (i 1).val / 32 := congrFun ht 1
  have q2 : win0_2.index t (2 : Fin 4) = 0 := congrFun ht 2
  have q3 : win0_2.index t (3 : Fin 4) = 0 := congrFun ht 3
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 32 ≤ (i 1).val ∧ (i 1).val < win0_2.index t (1 : Fin 4) * 32 + 32; omega
  | ⟨2, _⟩ => show win0_2.index t (2 : Fin 4) * 128 ≤ (i 2).val ∧ (i 2).val < win0_2.index t (2 : Fin 4) * 128 + 128; omega
  | ⟨3, _⟩ => show win0_2.index t (3 : Fin 4) * 3 ≤ (i 3).val ∧ (i 3).val < win0_2.index t (3 : Fin 4) * 3 + 3; omega

/-- THE REGION'S RESULT ARRAY after the run is the result function of the input arrays as launched. -/
theorem final (c : Dev nD) :
    (dats m 0 c).arrAt 2 cfg0.N
      = regionOut (m ((c : Thread nD τ).loc main_arg0)) (m ((c : Thread nD τ).loc main_arg1)) :=
  (dats m 0 c).arrAt_eq_of_cover 2 (regionOut (V m c main_arg0) (V m c main_arg1)) (fun t _ => flushed_eq m c t) (covered)

/-- The region-result index (b, r / 128, r % 128, k) with the row-major position of the merged index (b, r, k). -/
abbrev splitIdx (i : S32x8192x3.Idx) : S32x64x128x3.Idx := fun a => match a with
  | ⟨0, _⟩ => ⟨(i 0).val, (i 0).isLt⟩
  | ⟨1, _⟩ => ⟨(i 1).val / 128, by have h : (i 1).val < 8192 := (i 1).isLt; show (i 1).val / 128 < 64; omega⟩
  | ⟨2, _⟩ => ⟨(i 1).val % 128, by show (i 1).val % 128 < 128; omega⟩
  | ⟨3, _⟩ => ⟨(i 2).val, (i 2).isLt⟩

/-- The reshape of the region's result to [32, 8192, 3] is the result function: entry (b, r, k) has the row-major
    position of (b, r / 128, r % 128, k), whose rows are those behind (b, r). -/
theorem reshape_eq (x y : S32x64x300x128.Idx → EReal) :
    shapeCast S32x8192x3 (regionOut x y) shapeCasts_S32x64x128x3_S32x8192x3 = result x y := by
  funext i
  have h0 : (i 0).val < 32 := (i 0).isLt
  have h1 : (i 1).val < 8192 := (i 1).isLt
  have h2 : (i 2).val < 3 := (i 2).isLt
  refine (shapeCast_apply (regionOut x y) shapeCasts_S32x64x128x3_S32x8192x3 i (splitIdx i) ?_).trans ?_
  · rw [Shape.rowMajor_val_four, Shape.rowMajor_val_three]
    show (((i 0).val * 64 + (i 1).val / 128) * 128 + (i 1).val % 128) * 3 + (i 2).val
        = ((i 0).val * 8192 + (i 1).val) * 3 + (i 2).val
    omega
  · unfold regionOut result
    refine stat_congr (funext fun d => congrArg x (funext fun a => ?_)) (funext fun d => congrArg y (funext fun a => ?_)) rfl
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
      | ⟨3, _⟩ => rfl

/-- After the host line that follows the region, @main's result buffer holds the result function of the inputs. -/
theorem tail_eq (c : Dev nD) :
    Pipeline.afterTail₀ cfgs (dats m) 0 (V0 m) [hostOps1] c main_v1
      = result (m ((c : Thread nD τ).loc main_arg0)) (m ((c : Thread nD τ).loc main_arg1)) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.devRef .tc main_v0)
      = regionOut (m ((c : Thread nD τ).loc main_arg0)) (m ((c : Thread nD τ).loc main_arg1)) :=
    (Pipeline.withArrays_arr spec0 launch0.win.arr_inj c _ _ 2).trans (final m c)
  refine Eq.trans ?_ (reshape_eq (m ((c : Thread nD τ).loc main_arg0)) (m ((c : Thread nD τ).loc main_arg1)))
  funext i
  show shapeCast S32x8192x3
      (Pipeline.withArrays (cfgs 0).spec c (V0 m c) (fun w => (dats m 0 c).arrAt w (cfgs 0).N) (Proc.devRef .tc main_v0))
      shapeCasts_S32x64x128x3_S32x8192x3 i = _
  rw [hw]

/-- @main's result buffer is unscoped and is no window's array. -/
theorem v1_rest : main_v1 ∈ Pipeline.restRefs sig (cfgs 0).spec :=
  Pipeline.mem_restRefs_of main_v1 rfl (by decide)

/-- THE KERNEL'S RUN, READ: every weakly fair execution terminates with @main's result at the result function of the
    inputs as launched, the inputs unchanged. -/
theorem run : θ_run defs (onTc (τ := τ) (main (F := Ideal))) ⟨m, fun _ => 0, ρ⟩ fun r => ∀ c : Dev nD,
      r.2.mem ((c : Thread nD τ).loc main_v1)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨((h c).2 main_v1 v1_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Arr

end
-- ==== Proof.RefValue.lean ====
/-
  The reference's result at an index.

  The reference transposes each input to [32, 64, 128, 300] and merges channel and lane into one axis of 8192 rows, so
  row r of batch b holds input (b, r / 128, d, r % 128) at position d. It reduces over the last axis: its five sums from the
  zero initial value are the dot products and distance sums of the two rows, and the pointwise arithmetic after them
  is the three row statistics, each read as a [32, 8192, 1] array and joined along the last axis.
-/
import proofs.«180322_j84593675862345_1_alg».proof.Proof.Gen.ReferenceIdeal.Read
import proofs.«180322_j84593675862345_1_alg».proof.Proof.Result
import proofs.«180322_j84593675862345_1_alg».proof.Proof.LibStackLast
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Idealize.ShloMosaic.StackLast Cert.RowStats Cert.Result

/-- The input index that position d of row r of batch b reads, for the pair j = (b, r): (b, r / 128, d, r % 128). -/
abbrev rowOfPair (j : S32x8192.Idx) (d : Fin 300) : S32x64x300x128.Idx := fun a => match a with
  | ⟨0, _⟩ => ⟨(j 0).val, (j 0).isLt⟩
  | ⟨1, _⟩ => ⟨(j 1).val / 128, by have h : (j 1).val < 8192 := (j 1).isLt; show (j 1).val / 128 < 64; omega⟩
  | ⟨2, _⟩ => ⟨d.val, d.isLt⟩
  | ⟨3, _⟩ => ⟨(j 1).val % 128, by show (j 1).val % 128 < 128; omega⟩

/-- The transposed and merged array at (b, r, d) reads the input at (b, r / 128, d, r % 128): the merged position
    (b · 8192 + r) · 300 + d splits as ((b · 64 + r / 128) · 128 + r % 128) · 300 + d, and the transpose swaps the last two. -/
theorem rowIdx_eq (j : S32x8192.Idx) (d : Fin 300) : idx_main_v0 (idx_main_v1 (idx_main_v5 j d)) = rowOfPair j d := by
  funext a
  apply Fin.ext
  have h0 : (j 0).val < 32 := (j 0).isLt
  have h1 : (j 1).val < 8192 := (j 1).isLt
  have hd : d.val < 300 := d.isLt
  match a with
  | ⟨0, _⟩ => show (((j 0).val * 8192 + (j 1).val) * 300 + d.val) / 2457600 = (j 0).val; omega
  | ⟨1, _⟩ => show (((j 0).val * 8192 + (j 1).val) * 300 + d.val) / 38400 % 64 = (j 1).val / 128; omega
  | ⟨2, _⟩ => show (((j 0).val * 8192 + (j 1).val) * 300 + d.val) % 300 = d.val; omega
  | ⟨3, _⟩ => show (((j 0).val * 8192 + (j 1).val) * 300 + d.val) / 300 % 128 = (j 1).val % 128; omega

/-- Position d of row j of the first input's merged array. -/
theorem rowX (x : S32x64x300x128.Idx → EReal) (j : S32x8192.Idx) (d : Fin 300) :
    val_main_v1 (F := Ideal) x (idx_main_v5 j d) = x (rowOfPair j d) := by
  rw [val_main_v1_apply, val_main_v0_apply, rowIdx_eq]

/-- Position d of row j of the second input's merged array. -/
theorem rowY (y : S32x64x300x128.Idx → EReal) (j : S32x8192.Idx) (d : Fin 300) :
    val_main_v3 (F := Ideal) y (idx_main_v5 j d) = y (rowOfPair j d) := by
  rw [val_main_v3_apply, val_main_v2_apply]
  exact congrArg y (rowIdx_eq j d)

theorem sum_xx (x : S32x64x300x128.Idx → EReal) (j : S32x8192.Idx) :
    val_main_v5 (F := Ideal) x j = dot (fun d => x (rowOfPair j d)) (fun d => x (rowOfPair j d)) := by
  rw [val_main_v5_apply]
  show Ideal.ofBits .f32 0x00000000#32 + _ = _
  rw [Ideal.ofBits_zero_f32, zero_add]
  exact Finset.sum_congr rfl fun d _ => congrArg₂ (· * ·) (rowX x j d) (rowX x j d)

theorem sum_yy (y : S32x64x300x128.Idx → EReal) (j : S32x8192.Idx) :
    val_main_v10 (F := Ideal) y j = dot (fun d => y (rowOfPair j d)) (fun d => y (rowOfPair j d)) := by
  rw [val_main_v10_apply]
  show Ideal.ofBits .f32 0x00000000#32 + _ = _
  rw [Ideal.ofBits_zero_f32, zero_add]
  exact Finset.sum_congr rfl fun d _ => congrArg₂ (· * ·) (rowY y j d) (rowY y j d)

theorem sum_xy (x y : S32x64x300x128.Idx → EReal) (j : S32x8192.Idx) :
    val_main_v15 (F := Ideal) x y j = dot (fun d => x (rowOfPair j d)) (fun d => y (rowOfPair j d)) := by
  rw [val_main_v15_apply]
  show Ideal.ofBits .f32 0x00000000#32 + _ = _
  rw [Ideal.ofBits_zero_f32, zero_add]
  exact Finset.sum_congr rfl fun d _ => congrArg₂ (· * ·) (rowX x j d) (rowY y j d)

theorem sum_sq (x y : S32x64x300x128.Idx → EReal) (j : S32x8192.Idx) :
    val_main_v20 (F := Ideal) x y j = sqDist (fun d => x (rowOfPair j d)) (fun d => y (rowOfPair j d)) := by
  rw [val_main_v20_apply]
  show Ideal.ofBits .f32 0x00000000#32 + _ = _
  rw [Ideal.ofBits_zero_f32, zero_add]
  exact Finset.sum_congr rfl fun d _ =>
    congrArg₂ (fun a b : EReal => (a - b) * (a - b)) (rowX x j d) (rowY y j d)

theorem sum_abs (x y : S32x64x300x128.Idx → EReal) (j : S32x8192.Idx) :
    val_main_v29 (F := Ideal) x y j = manhattan (fun d => x (rowOfPair j d)) (fun d => y (rowOfPair j d)) := by
  rw [val_main_v29_apply]
  show Ideal.ofBits .f32 0x00000000#32 + _ = _
  rw [Ideal.ofBits_zero_f32, zero_add]
  exact Finset.sum_congr rfl fun d _ =>
    congrArg₂ (fun a b : EReal => max (a - b) (-(a - b))) (rowX x j d) (rowY y j d)

/-- The cosine stage at the pair j. -/
theorem cos_at (x y : S32x64x300x128.Idx → EReal) (j : S32x8192.Idx) :
    val_main_v17 (F := Ideal) x y j = cosine (fun d => x (rowOfPair j d)) (fun d => y (rowOfPair j d)) :=
  congrArg₂ (fun s n : EReal => Ideal.div s n) (sum_xy x y j)
    (congrArg₂ (fun a b : EReal => max (Ideal.sqrt a) normFloor * max (Ideal.sqrt b) normFloor) (sum_xx x j) (sum_yy y j))

/-- The distance stage at the pair j: the host converts the comparison's bit to 0 or 1 directly. -/
theorem euclid_at (x y : S32x64x300x128.Idx → EReal) (j : S32x8192.Idx) :
    val_main_v27 (F := Ideal) x y j = euclid (fun d => x (rowOfPair j d)) (fun d => y (rowOfPair j d)) :=
  congrArg (fun s : EReal => Ideal.sqrt (s + bracket (Ideal.cmp .olt s sqBump) * sqBump)) (sum_sq x y j)

/-- The rows behind the pair (b, r) are the rows behind any result entry (b, r, k). -/
theorem rowOfPair_eq (b : Fin 32) (r : Fin 8192) (k : Fin 3) (u : Fin 1) (d : Fin 300) :
    rowOfPair (idx_main_v30 (ix3 b r u)) d = rowOfOut (ix3 b r k) d := by
  funext a
  match a with
  | ⟨0, _⟩ => rfl
  | ⟨1, _⟩ => rfl
  | ⟨2, _⟩ => rfl
  | ⟨3, _⟩ => rfl

/-- THE REFERENCE'S RESULT is the result function of the inputs. -/
theorem value_eq (x y : S32x64x300x128.Idx → EReal) : val_main_v33 (F := Ideal) x y = result x y := by
  funext i
  obtain ⟨b, r, k, rfl⟩ : ∃ (b : Fin 32) (r : Fin 8192) (k : Fin 3), i = ix3 b r k := ⟨i 0, i 1, i 2, eq_ix3 i⟩
  unfold val_main_v33
  refine (concat3_last_apply _ _ _ _ b r k).trans ?_
  unfold result
  have hx : (fun d => x (rowOfPair (idx_main_v30 (ix3 b r (0 : Fin 1))) d)) = fun d => x (rowOfOut (ix3 b r k) d) :=
    funext fun d => congrArg x (rowOfPair_eq b r k 0 d)
  have hy : (fun d => y (rowOfPair (idx_main_v30 (ix3 b r (0 : Fin 1))) d)) = fun d => y (rowOfOut (ix3 b r k) d) :=
    funext fun d => congrArg y (rowOfPair_eq b r k 0 d)
  match k with
  | ⟨0, _⟩ =>
    dsimp only [pick3]
    rw [val_main_v30_apply]
    exact (cos_at x y _).trans (congrArg₂ cosine hx hy)
  | ⟨1, _⟩ =>
    dsimp only [pick3]
    rw [val_main_v31_apply]
    exact (euclid_at x y _).trans (congrArg₂ euclid hx hy)
  | ⟨2, _⟩ =>
    dsimp only [pick3]
    rw [val_main_v32_apply]
    exact (sum_abs x y _).trans (congrArg₂ manhattan hx hy)

end Cert.ReferenceIdeal.RefValue

end
-- ==== Proof.lean ====
/-
  Row-wise cosine similarity, Euclidean distance and L1 distance of two [32, 64, 300, 128] arrays, as a [32, 8192, 3] array:
  a kernel against its reference, over the extended reals.

  For batch b, channel ch and lane l the two rows are d ↦ x (b, ch, d, l) and d ↦ y (b, ch, d, l), 300 entries each, and row
  r = 128 · ch + l of batch b of the result holds
      (Σ u·v) / (max (√Σ u²) ε · max (√Σ v²) ε),   √(s + [s < β]·β) with s = Σ (u − v)²,   Σ |u − v|
  with ε and β the values of the f32 words of 1e-12 and 1e-8, the same words in both programs.

  The kernel runs over a 32 × 2 grid; each point stages 32 channels of one batch, reduces over the position axis inside
  the block, and writes back a [1, 32, 128, 3] block; the 64 blocks tile a [32, 64, 128, 3] array, which the host then
  reshapes, merging channel and lane in row-major order. The reference transposes positions to the last axis, merges
  channel and lane, and reduces over the last axis on the host. Read at an index, both are the same three statistics of the
  same two rows: the sums run over the same 300 entries, a lane sum and a host sum from the initial value 0 are one sum, the
  host's square root, quotient and absolute value are the kernel's, and the comparison's bit becomes 0 or 1 either by
  widening and a signed conversion or by an unsigned conversion. No law of arithmetic is used beyond 0 + a = a, so the
  inputs' finiteness is never opened.

  The ideal pass rewrote nothing, so the idealization claim has no conjunct.
-/
import proofs.«180322_j84593675862345_1_alg».proof.Defs
import proofs.«180322_j84593675862345_1_alg».proof.Proof.Gen.Kernel
import proofs.«180322_j84593675862345_1_alg».proof.Proof.Gen.Kernel.Skeleton
import proofs.«180322_j84593675862345_1_alg».proof.Proof.Gen.Kernel.Launch
import proofs.«180322_j84593675862345_1_alg».proof.Proof.Gen.Kernel.Points
import proofs.«180322_j84593675862345_1_alg».proof.Proof.Gen.Kernel.Frame
import proofs.«180322_j84593675862345_1_alg».proof.Proof.Gen.KernelIdeal
import proofs.«180322_j84593675862345_1_alg».proof.Proof.Gen.KernelIdeal.Skeleton
import proofs.«180322_j84593675862345_1_alg».proof.Proof.Gen.KernelIdeal.Launch
import proofs.«180322_j84593675862345_1_alg».proof.Proof.Gen.KernelIdeal.Points
import proofs.«180322_j84593675862345_1_alg».proof.Proof.Gen.KernelIdeal.Frame
import proofs.«180322_j84593675862345_1_alg».proof.Proof.Gen.ReferenceIdeal
import proofs.«180322_j84593675862345_1_alg».proof.Proof.Gen.Pre_finite_inputs
import proofs.«180322_j84593675862345_1_alg».proof.Proof.Gen.ReferenceIdeal.Run
import proofs.«180322_j84593675862345_1_alg».proof.Proof.Gen.ReferenceIdeal.Read
import proofs.«180322_j84593675862345_1_alg».proof.Proof.KernelArray
import proofs.«180322_j84593675862345_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates without a fault and leaves its inputs unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both programs end with the result function of the inputs: the kernel's blocks tile the array it reshapes, the
    reference's last stage read at an index is the same three statistics of the same two rows. -/
theorem algebraic : Cert.algebraic_KernelIdeal_ReferenceIdeal := by
  intro m ρ m' ρ' _ hagree
  refine ⟨fun c => Cert.Result.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, Cert.ReferenceIdeal.RefValue.value_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
